-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 88
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .bf16⟩
  | .hbm, ⟨47, _⟩ => ⟨S128x128, .bf16⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .bf16⟩
  | .hbm, ⟨68, _⟩ => ⟨S128x64, .bf16⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S128x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S50000x128, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x1600000, .i32⟩
  | 71 => ⟨S1600000, .i32⟩
  | 72 => ⟨S1650000, .i32⟩
  | 73 => ⟨S1x1600000, .i32⟩
  | 74 => ⟨S1600000, .i32⟩
  | 75 => ⟨S1650000, .i32⟩
  | 76 => ⟨S_, .f32⟩
  | 77 => ⟨S1650000, .f32⟩
  | 78 => ⟨S_, .f32⟩
  | 79 => ⟨S50000, .f32⟩
  | 80 => ⟨S1650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000, .f32⟩
  | 108 => ⟨S1650000, .f32⟩
  | 109 => ⟨S50000x64, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000x64, .f32⟩
  | 119 => ⟨S1650000x1, .f32⟩
  | 120 => ⟨S1650000x64, .f32⟩
  | 121 => ⟨S1650000x64, .f32⟩
  | 122 => ⟨S_, .f32⟩
  | 123 => ⟨S50000x64, .f32⟩
  | 124 => ⟨S1650000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Spec.lean ====
/-
  The two-layer graph convolution as ONE function of the six argument arrays, spelt with the reference program's own
  operations and dimension records, so that it can be set beside either program's result.

  With N = 50000 nodes and E = 1600000 edges: the edge list's two rows, each followed by 0 … N−1 (a self loop per
  node), are the edges' sources and destinations. A node's degree is the number of edges ending in it, its factor
  the reciprocal square root of the degree (0 where the degree is not positive), and an edge's weight the product of
  its two ends' factors. One layer multiplies the features by a weight matrix, sends along every edge the source's
  row scaled by the edge's weight, adds up what arrives at each destination, and adds a bias row. The network is such a
  layer into 128 features, the maximum with 0, and such a layer into 64 features.
-/
import proofs.«100522_j2241972928748_1_alg».proof.ReferenceIdeal

noncomputable section

namespace Cert.Gcn

open Idealize.ShloMosaic Idealize.SL.Sem Cert.ReferenceIdeal Cert.ReferenceIdeal.Facts₀

variable {F : FTy → Type} [FloatOps F] [Cert.ReferenceIdeal.Facts]

/-- The edges' sources: row 0 of the edge list, then 0 … N−1. -/
def sources (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The edges' destinations: row 1 of the edge list, then 0 … N−1. -/
def dests (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- A node index read the way an array subscript is: a negative one counts from the end (N is added). -/
def fromEnd (s : (⟨S1650000, .i32⟩ : BufTy).Contents (Elt F)) : (⟨S1650000, .i32⟩ : BufTy).Contents (Elt F) :=
  select (cmpi .slt s (broadcastInDim S1650000 ![] bcast_S_S1650000 (constantI S_ 32 0#32))) (addi s (broadcastInDim S1650000 ![] bcast_S_S1650000 (constantI S_ 32 50000#32))) s

/-- A node's degree: the number of edges (self loop included) that end in it. -/
def degree (e : (⟨S2x1600000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 (dests (F := F) e)) (broadcastInDim S1650000 ![] bcast_S_S1650000 (constant S_ .f32 0x3F800000#32))

/-- A node's factor: degree^(−1/2) where the degree is positive, 0 elsewhere. -/
def factor (e : (⟨S2x1600000, .i32⟩ : BufTy).Contents (Elt F)) : (⟨S50000, .f32⟩ : BufTy).Contents (Elt F) :=
  select (cmpf (F := F) .ogt (degree e) (broadcastInDim S50000 ![] bcast_S_S50000 (constant S_ .f32 0x00000000#32))) (Host.rsqrt (degree e)) (broadcastInDim S50000 ![] bcast_S_S50000 (id (constant S_ .f32 0x00000000#32)))

/-- An edge's weight: the product of its source's and its destination's factors. -/
def weight (e : (⟨S2x1600000, .i32⟩ : BufTy).Contents (Elt F)) : (⟨S1650000, .f32⟩ : BufTy).Contents (Elt F) :=
  mulf (Host.gather gather_S50000_S1650000x1_S1650000_n_0_n_n_0_1_1 (factor e) (broadcastInDim S1650000x1 ![0] bcast_S1650000_S1650000x1_0 (fromEnd (F := F) (sources (F := F) e)))) (Host.gather gather_S50000_S1650000x1_S1650000_n_0_n_n_0_1_1 (factor e) (broadcastInDim S1650000x1 ![0] bcast_S1650000_S1650000x1_0 (fromEnd (F := F) (dests (F := F) e))))

/-- What arrives at each node, 128 features wide: along every edge the source's row of `h` times the edge's weight,
    added up per destination. -/
def gathered128 (e : (⟨S2x1600000, .i32⟩ : BufTy).Contents (Elt F)) (h : (⟨S50000x128, .f32⟩ : BufTy).Contents (Elt F)) : (⟨S50000x128, .f32⟩ : BufTy).Contents (Elt F) :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 (dests (F := F) e)) (mulf (Host.gather gather_S50000x128_S1650000x1_S1650000x128_1_0_n_n_0_1_1128 h (broadcastInDim S1650000x1 ![0] bcast_S1650000_S1650000x1_0 (fromEnd (F := F) (sources (F := F) e)))) (broadcastInDim S1650000x128 ![0, 1] bcast_S1650000x1_S1650000x128_0_1 (broadcastInDim S1650000x1 ![0] bcast_S1650000_S1650000x1_0 (weight e))))

/-- The same, 64 features wide. -/
def gathered64 (e : (⟨S2x1600000, .i32⟩ : BufTy).Contents (Elt F)) (h : (⟨S50000x64, .f32⟩ : BufTy).Contents (Elt F)) : (⟨S50000x64, .f32⟩ : BufTy).Contents (Elt F) :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 (dests (F := F) e)) (mulf (Host.gather gather_S50000x64_S1650000x1_S1650000x64_1_0_n_n_0_1_164 h (broadcastInDim S1650000x1 ![0] bcast_S1650000_S1650000x1_0 (fromEnd (F := F) (sources (F := F) e)))) (broadcastInDim S1650000x64 ![0, 1] bcast_S1650000x1_S1650000x64_0_1 (broadcastInDim S1650000x1 ![0] bcast_S1650000_S1650000x1_0 (weight e))))

/-- A bias row laid under every node's 128 features. -/
def biasRows128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- A bias row laid under every node's 64 features. -/
def biasRows64 (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- The first layer after its maximum with 0. -/
def hidden (x : (⟨S50000x128, .f32⟩ : BufTy).Contents (Elt F)) (e : (⟨S2x1600000, .i32⟩ : BufTy).Contents (Elt F)) (W1 : (⟨S128x128, .f32⟩ : BufTy).Contents (Elt F)) (b1 : (⟨S128, .f32⟩ : BufTy).Contents (Elt F)) : (⟨S50000x128, .f32⟩ : BufTy).Contents (Elt F) :=
  maximumf (addf (gathered128 e (Host.dotGeneral dot_S50000x128_S128x128_S50000x128_1_0_0_1_n_n none x W1)) (biasRows128 b1)) (broadcastInDim S50000x128 ![] bcast_S_S50000x128 (constant S_ .f32 0x00000000#32))

/-- The network's output. -/
def network (x : (⟨S50000x128, .f32⟩ : BufTy).Contents (Elt F)) (e : (⟨S2x1600000, .i32⟩ : BufTy).Contents (Elt F)) (W1 : (⟨S128x128, .f32⟩ : BufTy).Contents (Elt F)) (b1 : (⟨S128, .f32⟩ : BufTy).Contents (Elt F)) (W2 : (⟨S128x64, .f32⟩ : BufTy).Contents (Elt F)) (b2 : (⟨S64, .f32⟩ : BufTy).Contents (Elt F)) : (⟨S50000x64, .f32⟩ : BufTy).Contents (Elt F) :=
  addf (gathered64 e (Host.dotGeneral dot_S50000x128_S128x64_S50000x64_1_0_0_1_n_n none (hidden x e W1 b1) W2)) (biasRows64 b2)

end Cert.Gcn

end
-- ==== Proof.Boundaries.lean ====
/-
  What the host operations between the kernel regions compute, boundary by boundary, in the vocabulary of the
  network's definition. The edges' sources and destinations and the edges' weights are computed before the first
  region, and no later operation or region writes them or the bias and weight arguments. Between a product region and
  the following bias region the host gathers the product's rows along the edges, scales them by the weights and adds
  them up per destination. The operands of the two product regions are copies of their sources in a narrower float
  format, and each bias row is its argument recast to one row.
-/
import proofs.«100522_j2241972928748_1_alg».proof.Proof.Gen.KernelIdeal.Frame
import proofs.«100522_j2241972928748_1_alg».proof.Proof.Gen.ReferenceIdeal
import proofs.«100522_j2241972928748_1_alg».proof.Proof.Spec
import Idealize.ShloMosaic.Lib.StableHlo.Run

noncomputable section

namespace Cert.KernelIdeal.Boundaries

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that none of a stretch's operations writes holds after the stretch what it held before:
    `untouched r ops U` proves `after ops U r = U r`. -/
macro "untouched" r:term:max ops:term:max U:term:max : tactic =>
  `(tactic| exact StableHlo.after_of_forall_not_mem (b := Proc.devRef .tc $r) $ops $U (List.forall_iff_forall_mem.mp (by
      simp only [hostOps0, hostOps0_1, hostOps0_2, hostOps1, hostOps2, hostOps3, List.Forall, StableHlo.nullary_writes,
        StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-! ## Before the first region -/

/-- After the first stretch: the edges' sources. -/
theorem W1_sources (c : Dev nD) : W1 m ρ c (Proc.devRef .tc main_v3) = Cert.Gcn.sources (F := F) (m ((c : Thread nD τ).loc main_arg1)) := by
  show StableHlo.after hostOps0 (W0 m ρ c) (Proc.devRef .tc main_v3) = _
  after_results
  rfl

/-- After the first stretch: the edges' destinations. -/
theorem W1_dests (c : Dev nD) : W1 m ρ c (Proc.devRef .tc main_v6) = Cert.Gcn.dests (F := F) (m ((c : Thread nD τ).loc main_arg1)) := by
  show StableHlo.after hostOps0 (W0 m ρ c) (Proc.devRef .tc main_v6) = _
  after_results
  rfl

/-- After the first stretch: where the degree is positive. -/
theorem W1_positive (c : Dev nD) : W1 m ρ c (Proc.devRef .tc main_v12)
    = cmpf (F := F) .ogt (Cert.Gcn.degree (F := F) (m ((c : Thread nD τ).loc main_arg1)))
        (broadcastInDim Cert.ReferenceIdeal.S50000 ![] Cert.ReferenceIdeal.Gen.bcast_S_S50000 (constant Cert.ReferenceIdeal.S_ .f32 0x00000000#32)) := by
  show StableHlo.after hostOps0 (W0 m ρ c) (Proc.devRef .tc main_v12) = _
  after_results
  rfl

/-- After the first stretch: the degree's reciprocal square root. -/
theorem W1_rsqrt (c : Dev nD) : W1 m ρ c (Proc.devRef .tc main_v13) = Host.rsqrt (Cert.Gcn.degree (F := F) (m ((c : Thread nD τ).loc main_arg1))) := by
  show StableHlo.after hostOps0 (W0 m ρ c) (Proc.devRef .tc main_v13) = _
  after_results
  rfl

/-- After the first stretch: the constant 0 the selection falls back to. -/
theorem W1_zero (c : Dev nD) : W1 m ρ c (Proc.devRef .tc main_cst_2) = constant Cert.ReferenceIdeal.S_ .f32 0x00000000#32 := by
  show StableHlo.after hostOps0 (W0 m ρ c) (Proc.devRef .tc main_cst_2) = _
  after_results

/-- After the selection: each node's factor. -/
theorem W2_factor (c : Dev nD) : W2 m ρ c (Proc.devRef .tc main_v14) = Cert.Gcn.factor (F := F) (m ((c : Thread nD τ).loc main_arg1)) := by
  show StableHlo.after hostOps0_1 (W1 m ρ c) (Proc.devRef .tc main_v14) = _
  have h12 := W1_positive m ρ c
  have h13 := W1_rsqrt m ρ c
  have h0 := W1_zero m ρ c
  generalize W1 m ρ c = U at h12 h13 h0 ⊢
  after_results
  rw [h12, h13, h0]
  rfl

theorem W2_sources (c : Dev nD) : W2 m ρ c (Proc.devRef .tc main_v3) = Cert.Gcn.sources (F := F) (m ((c : Thread nD τ).loc main_arg1)) :=
  (by untouched main_v3 hostOps0_1 (W1 m ρ c) : W2 m ρ c (Proc.devRef .tc main_v3) = W1 m ρ c (Proc.devRef .tc main_v3)).trans (W1_sources m ρ c)

theorem W2_dests (c : Dev nD) : W2 m ρ c (Proc.devRef .tc main_v6) = Cert.Gcn.dests (F := F) (m ((c : Thread nD τ).loc main_arg1)) :=
  (by untouched main_v6 hostOps0_1 (W1 m ρ c) : W2 m ρ c (Proc.devRef .tc main_v6) = W1 m ρ c (Proc.devRef .tc main_v6)).trans (W1_dests m ρ c)

set_option maxHeartbeats 2000000 in
/-- At the first region's entry: each edge's weight. -/
theorem W3_weight (c : Dev nD) : W3 m ρ c (Proc.devRef .tc main_v29) = Cert.Gcn.weight (F := F) (m ((c : Thread nD τ).loc main_arg1)) := by
  show StableHlo.after hostOps0_2 (W2 m ρ c) (Proc.devRef .tc main_v29) = _
  have hf := W2_factor m ρ c
  have hs := W2_sources m ρ c
  have hd := W2_dests m ρ c
  generalize W2 m ρ c = U at hf hs hd ⊢
  after_results_simp
  rw [hf, hs, hd]
  rfl

theorem W3_sources (c : Dev nD) : W3 m ρ c (Proc.devRef .tc main_v3) = Cert.Gcn.sources (F := F) (m ((c : Thread nD τ).loc main_arg1)) :=
  (by untouched main_v3 hostOps0_2 (W2 m ρ c) : W3 m ρ c (Proc.devRef .tc main_v3) = W2 m ρ c (Proc.devRef .tc main_v3)).trans (W2_sources m ρ c)

theorem W3_dests (c : Dev nD) : W3 m ρ c (Proc.devRef .tc main_v6) = Cert.Gcn.dests (F := F) (m ((c : Thread nD τ).loc main_arg1)) :=
  (by untouched main_v6 hostOps0_2 (W2 m ρ c) : W3 m ρ c (Proc.devRef .tc main_v6) = W2 m ρ c (Proc.devRef .tc main_v6)).trans (W2_dests m ρ c)

/-- The features argument is as launched after the first three stretches. -/
theorem W2_features (c : Dev nD) : W2 m ρ c (Proc.devRef .tc main_arg0) = m ((c : Thread nD τ).loc main_arg0) :=
  calc W2 m ρ c (Proc.devRef .tc main_arg0)
    _ = W1 m ρ c (Proc.devRef .tc main_arg0) := by untouched main_arg0 hostOps0_1 (W1 m ρ c)
    _ = W0 m ρ c (Proc.devRef .tc main_arg0) := by untouched main_arg0 hostOps0 (W0 m ρ c)
    _ = m ((c : Thread nD τ).loc main_arg0) := rfl

/-- The first weight matrix is as launched after the first two stretches. -/
theorem W2_weights1 (c : Dev nD) : W2 m ρ c (Proc.devRef .tc main_arg2) = m ((c : Thread nD τ).loc main_arg2) :=
  calc W2 m ρ c (Proc.devRef .tc main_arg2)
    _ = W1 m ρ c (Proc.devRef .tc main_arg2) := by untouched main_arg2 hostOps0_1 (W1 m ρ c)
    _ = W0 m ρ c (Proc.devRef .tc main_arg2) := by untouched main_arg2 hostOps0 (W0 m ρ c)
    _ = m ((c : Thread nD τ).loc main_arg2) := rfl

/-- The first product's left operand: the features in the narrower format. -/
theorem W3_lhs (c : Dev nD) : W3 m ρ c (Proc.devRef .tc main_v30) = truncf .bf16 (m ((c : Thread nD τ).loc main_arg0)) bitsLt_bf16_f32 := by
  show StableHlo.after hostOps0_2 (W2 m ρ c) (Proc.devRef .tc main_v30) = _
  have h := W2_features m ρ c
  generalize W2 m ρ c = U at h ⊢
  after_results
  rw [h]

/-- The first product's right operand: the first weight matrix in the narrower format. -/
theorem W3_rhs (c : Dev nD) : W3 m ρ c (Proc.devRef .tc main_v31) = truncf .bf16 (m ((c : Thread nD τ).loc main_arg2)) bitsLt_bf16_f32 := by
  show StableHlo.after hostOps0_2 (W2 m ρ c) (Proc.devRef .tc main_v31) = _
  have h := W2_weights1 m ρ c
  generalize W2 m ρ c = U at h ⊢
  after_results
  rw [h]

/-- An argument no stretch before the first region writes is as launched at the first region's entry. -/
theorem W3_bias1 (c : Dev nD) : W3 m ρ c (Proc.devRef .tc main_arg3) = m ((c : Thread nD τ).loc main_arg3) :=
  calc W3 m ρ c (Proc.devRef .tc main_arg3)
    _ = W2 m ρ c (Proc.devRef .tc main_arg3) := by untouched main_arg3 hostOps0_2 (W2 m ρ c)
    _ = W1 m ρ c (Proc.devRef .tc main_arg3) := by untouched main_arg3 hostOps0_1 (W1 m ρ c)
    _ = W0 m ρ c (Proc.devRef .tc main_arg3) := by untouched main_arg3 hostOps0 (W0 m ρ c)
    _ = m ((c : Thread nD τ).loc main_arg3) := rfl

theorem W3_weights2 (c : Dev nD) : W3 m ρ c (Proc.devRef .tc main_arg4) = m ((c : Thread nD τ).loc main_arg4) :=
  calc W3 m ρ c (Proc.devRef .tc main_arg4)
    _ = W2 m ρ c (Proc.devRef .tc main_arg4) := by untouched main_arg4 hostOps0_2 (W2 m ρ c)
    _ = W1 m ρ c (Proc.devRef .tc main_arg4) := by untouched main_arg4 hostOps0_1 (W1 m ρ c)
    _ = W0 m ρ c (Proc.devRef .tc main_arg4) := by untouched main_arg4 hostOps0 (W0 m ρ c)
    _ = m ((c : Thread nD τ).loc main_arg4) := rfl

theorem W3_bias2 (c : Dev nD) : W3 m ρ c (Proc.devRef .tc main_arg5) = m ((c : Thread nD τ).loc main_arg5) :=
  calc W3 m ρ c (Proc.devRef .tc main_arg5)
    _ = W2 m ρ c (Proc.devRef .tc main_arg5) := by untouched main_arg5 hostOps0_2 (W2 m ρ c)
    _ = W1 m ρ c (Proc.devRef .tc main_arg5) := by untouched main_arg5 hostOps0_1 (W1 m ρ c)
    _ = W0 m ρ c (Proc.devRef .tc main_arg5) := by untouched main_arg5 hostOps0 (W0 m ρ c)
    _ = m ((c : Thread nD τ).loc main_arg5) := rfl

/-! ## What every later boundary still holds -/

/-- The contents a boundary keeps from the first region's entry on: the sources, the destinations, the weights,
    and the three arguments read later (first bias, second weight matrix, second bias). -/
structure Kept (c : Dev nD) (U : Valuation τ sig (Elt F)) : Prop where
  src : U (Proc.devRef .tc main_v3) = Cert.Gcn.sources (F := F) (m ((c : Thread nD τ).loc main_arg1))
  dst : U (Proc.devRef .tc main_v6) = Cert.Gcn.dests (F := F) (m ((c : Thread nD τ).loc main_arg1))
  wt : U (Proc.devRef .tc main_v29) = Cert.Gcn.weight (F := F) (m ((c : Thread nD τ).loc main_arg1))
  b1 : U (Proc.devRef .tc main_arg3) = m ((c : Thread nD τ).loc main_arg3)
  w2 : U (Proc.devRef .tc main_arg4) = m ((c : Thread nD τ).loc main_arg4)
  b2 : U (Proc.devRef .tc main_arg5) = m ((c : Thread nD τ).loc main_arg5)

theorem kept3 (c : Dev nD) : Kept m c (W3 m ρ c) :=
  ⟨W3_sources m ρ c, W3_dests m ρ c, W3_weight m ρ c, W3_bias1 m ρ c, W3_weights2 m ρ c, W3_bias2 m ρ c⟩

/-- The first region writes only its output. -/
theorem kept4 (c : Dev nD) : Kept m c (W4 m ρ c) :=
  have k := kept3 m ρ c
  ⟨(W4_of_ne m ρ c main_v3 (by decide)).trans k.src, (W4_of_ne m ρ c main_v6 (by decide)).trans k.dst,
   (W4_of_ne m ρ c main_v29 (by decide)).trans k.wt, (W4_of_ne m ρ c main_arg3 (by decide)).trans k.b1,
   (W4_of_ne m ρ c main_arg4 (by decide)).trans k.w2, (W4_of_ne m ρ c main_arg5 (by decide)).trans k.b2⟩

theorem kept5 (c : Dev nD) : Kept m c (W5 m ρ c) :=
  have k := kept4 m ρ c
  ⟨(by untouched main_v3 hostOps1 (W4 m ρ c) : W5 m ρ c (Proc.devRef .tc main_v3) = W4 m ρ c (Proc.devRef .tc main_v3)).trans k.src,
   (by untouched main_v6 hostOps1 (W4 m ρ c) : W5 m ρ c (Proc.devRef .tc main_v6) = W4 m ρ c (Proc.devRef .tc main_v6)).trans k.dst,
   (by untouched main_v29 hostOps1 (W4 m ρ c) : W5 m ρ c (Proc.devRef .tc main_v29) = W4 m ρ c (Proc.devRef .tc main_v29)).trans k.wt,
   (by untouched main_arg3 hostOps1 (W4 m ρ c) : W5 m ρ c (Proc.devRef .tc main_arg3) = W4 m ρ c (Proc.devRef .tc main_arg3)).trans k.b1,
   (by untouched main_arg4 hostOps1 (W4 m ρ c) : W5 m ρ c (Proc.devRef .tc main_arg4) = W4 m ρ c (Proc.devRef .tc main_arg4)).trans k.w2,
   (by untouched main_arg5 hostOps1 (W4 m ρ c) : W5 m ρ c (Proc.devRef .tc main_arg5) = W4 m ρ c (Proc.devRef .tc main_arg5)).trans k.b2⟩

theorem kept6 (c : Dev nD) : Kept m c (W6 m ρ c) :=
  have k := kept5 m ρ c
  ⟨(W6_of_ne m ρ c main_v3 (by decide)).trans k.src, (W6_of_ne m ρ c main_v6 (by decide)).trans k.dst,
   (W6_of_ne m ρ c main_v29 (by decide)).trans k.wt, (W6_of_ne m ρ c main_arg3 (by decide)).trans k.b1,
   (W6_of_ne m ρ c main_arg4 (by decide)).trans k.w2, (W6_of_ne m ρ c main_arg5 (by decide)).trans k.b2⟩

theorem kept7 (c : Dev nD) : Kept m c (W7 m ρ c) :=
  have k := kept6 m ρ c
  ⟨(by untouched main_v3 hostOps2 (W6 m ρ c) : W7 m ρ c (Proc.devRef .tc main_v3) = W6 m ρ c (Proc.devRef .tc main_v3)).trans k.src,
   (by untouched main_v6 hostOps2 (W6 m ρ c) : W7 m ρ c (Proc.devRef .tc main_v6) = W6 m ρ c (Proc.devRef .tc main_v6)).trans k.dst,
   (by untouched main_v29 hostOps2 (W6 m ρ c) : W7 m ρ c (Proc.devRef .tc main_v29) = W6 m ρ c (Proc.devRef .tc main_v29)).trans k.wt,
   (by untouched main_arg3 hostOps2 (W6 m ρ c) : W7 m ρ c (Proc.devRef .tc main_arg3) = W6 m ρ c (Proc.devRef .tc main_arg3)).trans k.b1,
   (by untouched main_arg4 hostOps2 (W6 m ρ c) : W7 m ρ c (Proc.devRef .tc main_arg4) = W6 m ρ c (Proc.devRef .tc main_arg4)).trans k.w2,
   (by untouched main_arg5 hostOps2 (W6 m ρ c) : W7 m ρ c (Proc.devRef .tc main_arg5) = W6 m ρ c (Proc.devRef .tc main_arg5)).trans k.b2⟩

theorem kept8 (c : Dev nD) : Kept m c (W8 m ρ c) :=
  have k := kept7 m ρ c
  ⟨(W8_of_ne m ρ c main_v3 (by decide)).trans k.src, (W8_of_ne m ρ c main_v6 (by decide)).trans k.dst,
   (W8_of_ne m ρ c main_v29 (by decide)).trans k.wt, (W8_of_ne m ρ c main_arg3 (by decide)).trans k.b1,
   (W8_of_ne m ρ c main_arg4 (by decide)).trans k.w2, (W8_of_ne m ρ c main_arg5 (by decide)).trans k.b2⟩

/-! ## Between the regions -/

set_option maxHeartbeats 2000000 in
/-- At the second region's entry: what arrives at each node from the first product `h`, 128 wide. -/
theorem W5_gathered (c : Dev nD) : W5 m ρ c (Proc.devRef .tc main_v45)
    = Cert.Gcn.gathered128 (F := F) (m ((c : Thread nD τ).loc main_arg1)) (W4 m ρ c (Proc.devRef .tc main_v32)) := by
  show StableHlo.after hostOps1 (W4 m ρ c) (Proc.devRef .tc main_v45) = _
  have k := kept4 m ρ c
  obtain ⟨hs, hd, hw, -, -, -⟩ := k
  generalize W4 m ρ c = U at hs hd hw ⊢
  after_results_simp
  rw [hs, hd, hw]
  rfl

/-- At the second region's entry: the first bias as one row. -/
theorem W5_row (c : Dev nD) : W5 m ρ c (Proc.devRef .tc main_v46) = shapeCast S1x128 (m ((c : Thread nD τ).loc main_arg3)) shapeCasts_S128_S1x128 := by
  show StableHlo.after hostOps1 (W4 m ρ c) (Proc.devRef .tc main_v46) = _
  have h := (kept4 m ρ c).b1
  generalize W4 m ρ c = U at h ⊢
  after_results
  rw [h]
  rfl

/-- At the third region's entry: the left operand is the second region's output in the narrower format. -/
theorem W7_lhs (c : Dev nD) : W7 m ρ c (Proc.devRef .tc main_v48) = truncf .bf16 (W6 m ρ c (Proc.devRef .tc main_v47)) bitsLt_bf16_f32 := by
  show StableHlo.after hostOps2 (W6 m ρ c) (Proc.devRef .tc main_v48) = _
  generalize W6 m ρ c = U
  after_results

/-- At the third region's entry: the right operand is the second weight matrix in the narrower format. -/
theorem W7_rhs (c : Dev nD) : W7 m ρ c (Proc.devRef .tc main_v49) = truncf .bf16 (m ((c : Thread nD τ).loc main_arg4)) bitsLt_bf16_f32 := by
  show StableHlo.after hostOps2 (W6 m ρ c) (Proc.devRef .tc main_v49) = _
  have h := (kept6 m ρ c).w2
  generalize W6 m ρ c = U at h ⊢
  after_results
  rw [h]

set_option maxHeartbeats 2000000 in
/-- At the fourth region's entry: what arrives at each node from the second product `h`, 64 wide. -/
theorem W9_gathered (c : Dev nD) : W9 m ρ c (Proc.devRef .tc main_v63)
    = Cert.Gcn.gathered64 (F := F) (m ((c : Thread nD τ).loc main_arg1)) (W8 m ρ c (Proc.devRef .tc main_v50)) := by
  show StableHlo.after hostOps3 (W8 m ρ c) (Proc.devRef .tc main_v63) = _
  have k := kept8 m ρ c
  obtain ⟨hs, hd, hw, -, -, -⟩ := k
  generalize W8 m ρ c = U at hs hd hw ⊢
  after_results_simp
  rw [hs, hd, hw]
  rfl

/-- At the fourth region's entry: the second bias as one row. -/
theorem W9_row (c : Dev nD) : W9 m ρ c (Proc.devRef .tc main_v64) = shapeCast S1x64 (m ((c : Thread nD τ).loc main_arg5)) shapeCasts_S64_S1x64 := by
  show StableHlo.after hostOps3 (W8 m ρ c) (Proc.devRef .tc main_v64) = _
  have h := (kept8 m ρ c).b2
  generalize W8 m ρ c = U at h ⊢
  after_results
  rw [h]
  rfl

end Cert.KernelIdeal.Boundaries

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Product1.lean ====
/-
  The first layer's matrix product, as the whole array the first kernel region leaves.

  The region walks the 50000 rows of its left operand in 10 blocks of 5000; at block t it multiplies rows
  5000·t … 5000·t + 4999 by the whole 128 × 128 right operand into a zero accumulator and writes the 5000 × 128
  result back as rows 5000·t … of the output. Entry (r, q) of the output is therefore the sum over k of
  left(r, k) · right(k, q) — the product of the two WHOLE arrays, which is what the reference's one contraction
  computes: on the extended reals both are that sum, and the blocks tile the rows.
-/
import proofs.«100522_j2241972928748_1_alg».proof.Proof.Gen.KernelIdeal.Frame
import proofs.«100522_j2241972928748_1_alg».proof.Proof.Gen.ReferenceIdeal
import proofs.«100522_j2241972928748_1_alg».proof.Proof.LibPlainDot
import Idealize.ShloMosaic.Lib.Pipeline.Value
import Idealize.ShloMosaic.Lib.ValueIdx

noncomputable section

namespace Cert.KernelIdeal.Product1

open Cert.KernelIdeal Cert.KernelIdeal.Gen Idealize.ShloMosaic Idealize.ShloMosaic.TcCoe Idealize.SL.Sem Idealize.ShloMosaic.ValueIdx
open Idealize.ShloMosaic.Pipeline (Dat)

/- The buffers' contents when the region is entered: a parameter. -/
variable (V : (c : Dev nD) → (b : Ref sig .tc) → Buf (Elt Ideal) ((c : Thread nD τ).loc b))

theorem zeros : (![0, 0] : Fin 2 → Nat) = fun _ => 0 := funext fun a => by fin_cases a <;> rfl

/-- The kernel's and the reference's contractions both pair axis 1 of the left operand with axis 0 of the right. -/
theorem plainK : PlainDot.IsPlain (R := 5000) (K := 128) (C := 128) dot_S5000x128_S128x128_S5000x128_1_0_0_1_n_n := ⟨rfl, rfl, rfl, rfl, rfl, rfl⟩
theorem plainR : PlainDot.IsPlain (R := 50000) (K := 128) (C := 128) Cert.ReferenceIdeal.dot_S50000x128_S128x128_S50000x128_1_0_0_1_n_n := ⟨rfl, rfl, rfl, rfl, rfl, rfl⟩

/-- The product of the two whole arrays, in the reference's operation. -/
abbrev product (x : FVec Ideal S50000x128 .bf16) (w : FVec Ideal S128x128 .bf16) : FVec Ideal S50000x128 .f32 :=
  Host.dotGeneral Cert.ReferenceIdeal.dot_S50000x128_S128x128_S50000x128_1_0_0_1_n_n none x w

/-- The two operand arrays as the region finds them. -/
abbrev lhs (c : Dev nD) : FVec Ideal S50000x128 .bf16 := V c main_v30
abbrev rhs (c : Dev nD) : FVec Ideal S128x128 .bf16 := V c main_v31

/-- Block t of the left operand and of the output starts at row block t; the right operand's one block is the array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores, at (p, q): the sum over k of the left block's (p, k) times the right block's (k, q). -/
theorem payload_at (x0 : Vec Ideal S5000x128 .bf16) (x1 : Vec Ideal S128x128 .bf16) (p : Fin 5000) (q : Fin 128) :
    k0_pay1 x0 x1 (ix2 p q) = ∑ k : Fin 128, x0 (ix2 p k) * x1 (ix2 k q) := by
  unfold k0_pay1
  rw [shapeCast_self, shapeCast_self]
  exact PlainDot.matmul_zero_apply plainK none x0 x1 p q

/-- The whole product at (r, q): the same sum over the whole arrays. -/
theorem product_at (x : FVec Ideal S50000x128 .bf16) (w : FVec Ideal S128x128 .bf16) (r : Fin 50000) (q : Fin 128) :
    product x w (ix2 r q) = ∑ k : Fin 128, x (ix2 r k) * w (ix2 k q) :=
  PlainDot.dotGeneral_apply plainR none .single x w r q

/-- Row p of the left operand's block t is row 5000·t + p of the array. -/
theorem lhs_block (c : Dev nD) (t : Fin cfg0.N) (p : Fin 5000) (k : Fin 128) (r : Fin 50000) (hr : r.val = 5000 * t.val + p.val) :
    (iblk0 V c 0 t : Vec Ideal S5000x128 .bf16) (ix2 p k) = lhs V c (ix2 r k) := by
  obtain ⟨e0, e1, -⟩ := idx_facts t
  unfold iblk0
  rw [View.read_apply]
  show V c main_v30 _ = V c main_v30 _
  refine congrArg (V c main_v30) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The right operand's block is the whole array at every point. -/
theorem rhs_block (c : Dev nD) (t : Fin cfg0.N) (k : Fin 128) (q : Fin 128) :
    (iblk0 V c 1 t : Vec Ideal S128x128 .bf16) (ix2 k q) = rhs V c (ix2 k q) := by
  obtain ⟨-, -, e0, e1, -⟩ := idx_facts t
  unfold iblk0
  rw [View.read_apply]
  show V c main_v31 _ = V c main_v31 _
  refine congrArg (V c main_v31) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point t stores at (p, q) is the whole product at (5000·t + p, q). -/
theorem block_eq (c : Dev nD) (t : Fin cfg0.N) (p : Fin 5000) (q : Fin 128) (r : Fin 50000) (hr : r.val = 5000 * t.val + p.val) :
    k0_pay1 (iblk0 V c 0 t) (iblk0 V c 1 t) (ix2 p q) = product (lhs V c) (rhs V c) (ix2 r q) := by
  rw [product_at]
  refine (payload_at (iblk0 V c 0 t) (iblk0 V c 1 t) p q).trans ?_
  refine Finset.sum_congr rfl fun k _ => ?_
  rw [lhs_block V c t p k r hr, rhs_block V c t k q]

/-- What point t writes back is block t of the whole product. -/
theorem flushed_eq (c : Dev nD) (t : Fin cfg0.N) :
    (dat0 V c).flushed 2 t = ((cfg0.win 2).blk t).view.read (Elt Ideal) (product (lhs V c) (rhs V c)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨-, -, -, -, e0, e1⟩ := idx_facts t
  have ht : t.val < 10 := t.isLt
  funext j
  have hj0 : (j 0).val < 5000 := (j 0).isLt
  have hj1 : (j 1).val < 128 := (j 1).isLt
  obtain ⟨p, hp⟩ : ∃ p : Fin 5000, p.val = (j 0).val := ⟨⟨_, hj0⟩, rfl⟩
  obtain ⟨q, hq⟩ : ∃ q : Fin 128, q.val = (j 1).val := ⟨⟨_, hj1⟩, rfl⟩
  have hj : j = ix2 p q := funext fun a => Fin.ext (by
    match a with
    | ⟨0, _⟩ => exact hp.symm
    | ⟨1, _⟩ => exact hq.symm)
  subst hj
  rw [View.read_apply]
  have hemb : ((cfg0.win 2).blk t).view.emb (ix2 p q) = ix2 (⟨5000 * t.val + p.val, by omega⟩ : Fin 50000) q := by
    funext a
    apply Fin.ext
    match a with
    | ⟨0, _⟩ => show win0_2.index t (0 : Fin 2) * 5000 + 1 * p.val = 5000 * t.val + p.val; rw [e0]; omega
    | ⟨1, _⟩ => show win0_2.index t (1 : Fin 2) * 128 + 1 * q.val = q.val; rw [e1]; omega
  rw [hemb]
  exact block_eq V c t p q _ rfl

/-- An index of the output is in point t's block when its row lies in rows 5000·t … 5000·t + 4999. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The blocks tile the rows: row r is in block r / 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e0, e1⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- After the region the output array holds the product of the two whole operand arrays. -/
theorem final (c : Dev nD) : (dat0 V c).arrAt 2 cfg0.N = product (lhs V c) (rhs V c) :=
  (dat0 V c).arrAt_eq_of_cover 2 (product (lhs V c) (rhs V c)) (fun t _ => flushed_eq V c t) covered

end Cert.KernelIdeal.Product1

end
-- ==== Proof.Bias1.lean ====
/-
  The first layer's bias and maximum with 0, as the whole array the second kernel region leaves.

  The region walks the 50000 rows of its first operand in 10 blocks of 5000; at block t it adds the one bias row
  (a 1 × 128 array, the same block at every point) to each of rows 5000·t … 5000·t + 4999, takes the maximum with
  0, and writes the 5000 × 128 result back as rows 5000·t … of the output. Entry (r, q) of the output is therefore
  max (a(r, q) + b(0, q)) 0: the reference's add of the bias laid under every row, then its maximum with 0.
-/
import proofs.«100522_j2241972928748_1_alg».proof.Proof.Gen.KernelIdeal.Frame
import proofs.«100522_j2241972928748_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.Bias1

open Cert.KernelIdeal Cert.KernelIdeal.Gen Idealize.ShloMosaic Idealize.ShloMosaic.TcCoe Idealize.SL.Sem Idealize.ShloMosaic.ValueIdx
open Idealize.ShloMosaic.Pipeline (Dat)

/- The buffers' contents when the region is entered: a parameter. -/
variable (V : (c : Dev nD) → (b : Ref sig .tc) → Buf (Elt Ideal) ((c : Thread nD τ).loc b))

theorem zeros : (![0, 0] : Fin 2 → Nat) = fun _ => 0 := funext fun a => by fin_cases a <;> rfl

/-- Every row of `a` plus the one row `b`, then the maximum with 0, in the reference's operations. -/
abbrev biased (a : FVec Ideal S50000x128 .f32) (b : FVec Ideal S1x128 .f32) : FVec Ideal S50000x128 .f32 :=
  maximumf (addf a (broadcastInDim Cert.ReferenceIdeal.S50000x128 ![0, 1] Cert.ReferenceIdeal.Gen.bcast_S1x128_S50000x128_0_1 b))
    (broadcastInDim Cert.ReferenceIdeal.S50000x128 ![] Cert.ReferenceIdeal.Gen.bcast_S_S50000x128 (constant Cert.ReferenceIdeal.S_ .f32 0x00000000#32))

/-- The two operand arrays as the region finds them. -/
abbrev agg (c : Dev nD) : FVec Ideal S50000x128 .f32 := V c main_v45
abbrev row (c : Dev nD) : FVec Ideal S1x128 .f32 := V c main_v46

/-- Block t of the first operand and of the output starts at row block t; the bias row's one block is the array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the body stores, at (p, q). -/
theorem payload_at (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self, maximumf_apply, addf_apply, broadcastTo_1b_ab_apply]
  rfl

/-- The whole-array function at (r, q). -/
theorem biased_at (a : FVec Ideal S50000x128 .f32) (b : FVec Ideal S1x128 .f32) (r : Fin 50000) (q : Fin 128) :
    biased a b (ix2 r q) = max (a (ix2 r q) + b (ix2 (0 : Fin 1) q)) (Ideal.ofBits .f32 0x00000000#32) := by
  unfold biased
  rw [maximumf_apply, addf_apply,
    broadcastInDim_apply ![0, 1] _ b (ix2 r q) (ix2 (0 : Fin 1) q) (fun ax => by
      match ax with
      | ⟨0, _⟩ => rfl
      | ⟨1, _⟩ => rfl),
    broadcastInDim_apply ![] _ (constant Cert.ReferenceIdeal.S_ .f32 0x00000000#32) (ix2 r q) ix0 (fun ax => ax.elim0)]
  rfl

/-- Row p of the first operand's block t is row 5000·t + p of the array. -/
theorem agg_block (c : Dev nD) (t : Fin cfg1.N) (p : Fin 5000) (q : Fin 128) (r : Fin 50000) (hr : r.val = 5000 * t.val + p.val) :
    (iblk1 V c 0 t : Vec Ideal S5000x128 .f32) (ix2 p q) = agg V c (ix2 r q) := by
  obtain ⟨e0, e1, -⟩ := idx_facts t
  unfold iblk1
  rw [View.read_apply]
  show V c main_v45 _ = V c main_v45 _
  refine congrArg (V c main_v45) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The bias row's block is the whole 1 × 128 array at every point. -/
theorem row_block (c : Dev nD) (t : Fin cfg1.N) (q : Fin 128) :
    (iblk1 V c 1 t : Vec Ideal S1x128 .f32) (ix2 (0 : Fin 1) q) = row V c (ix2 (0 : Fin 1) q) := by
  obtain ⟨-, -, e0, e1, -⟩ := idx_facts t
  unfold iblk1
  rw [View.read_apply]
  show V c main_v46 _ = V c main_v46 _
  refine congrArg (V c main_v46) ?_
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- What point t stores at (p, q) is the whole-array function at (5000·t + p, q). -/
theorem block_eq (c : Dev nD) (t : Fin cfg1.N) (p : Fin 5000) (q : Fin 128) (r : Fin 50000) (hr : r.val = 5000 * t.val + p.val) :
    k1_pay1 (iblk1 V c 0 t) (iblk1 V c 1 t) (ix2 p q) = biased (agg V c) (row V c) (ix2 r q) := by
  rw [biased_at]
  refine (payload_at (iblk1 V c 0 t) (iblk1 V c 1 t) p q).trans ?_
  rw [agg_block V c t p q r hr, row_block V c t q]

/-- What point t writes back is block t of the whole-array function. -/
theorem flushed_eq (c : Dev nD) (t : Fin cfg1.N) :
    (dat1 V c).flushed 2 t = ((cfg1.win 2).blk t).view.read (Elt Ideal) (biased (agg V c) (row V c)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  obtain ⟨-, -, -, -, e0, e1⟩ := idx_facts t
  have ht : t.val < 10 := t.isLt
  funext j
  have hj0 : (j 0).val < 5000 := (j 0).isLt
  have hj1 : (j 1).val < 128 := (j 1).isLt
  obtain ⟨p, hp⟩ : ∃ p : Fin 5000, p.val = (j 0).val := ⟨⟨_, hj0⟩, rfl⟩
  obtain ⟨q, hq⟩ : ∃ q : Fin 128, q.val = (j 1).val := ⟨⟨_, hj1⟩, rfl⟩
  have hj : j = ix2 p q := funext fun a => Fin.ext (by
    match a with
    | ⟨0, _⟩ => exact hp.symm
    | ⟨1, _⟩ => exact hq.symm)
  subst hj
  rw [View.read_apply]
  have hemb : ((cfg1.win 2).blk t).view.emb (ix2 p q) = ix2 (⟨5000 * t.val + p.val, by omega⟩ : Fin 50000) q := by
    funext a
    apply Fin.ext
    match a with
    | ⟨0, _⟩ => show win1_2.index t (0 : Fin 2) * 5000 + 1 * p.val = 5000 * t.val + p.val; rw [e0]; omega
    | ⟨1, _⟩ => show win1_2.index t (1 : Fin 2) * 128 + 1 * q.val = q.val; rw [e1]; omega
  rw [hemb]
  exact block_eq V c t p q _ rfl

/-- An index of the output is in point t's block when its row lies in rows 5000·t … 5000·t + 4999. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The blocks tile the rows: row r is in block r / 5000. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, e0, e1⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- After the region the output array holds the first operand plus the bias row, maximum with 0. -/
theorem final (c : Dev nD) : (dat1 V c).arrAt 2 cfg1.N = biased (agg V c) (row V c) :=
  (dat1 V c).arrAt_eq_of_cover 2 (biased (agg V c) (row V c)) (fun t _ => flushed_eq V c t) covered

end Cert.KernelIdeal.Bias1

end
-- ==== Proof.Product2.lean ====
/-
  The second layer's matrix product, as the whole array the third kernel region leaves.

  The region walks the 50000 rows of its left operand in 10 blocks of 5000; at block t it multiplies rows
  5000·t … 5000·t + 4999 by the whole 128 × 64 right operand into a zero accumulator and writes the 5000 × 64
  result back as rows 5000·t … of the output. Entry (r, q) of the output is therefore the sum over k of
  left(r, k) · right(k, q): the product of the two whole arrays, the reference's one contraction.
-/
import proofs.«100522_j2241972928748_1_alg».proof.Proof.Gen.KernelIdeal.Frame
import proofs.«100522_j2241972928748_1_alg».proof.Proof.Gen.ReferenceIdeal
import proofs.«100522_j2241972928748_1_alg».proof.Proof.LibPlainDot
import Idealize.ShloMosaic.Lib.Pipeline.Value
import Idealize.ShloMosaic.Lib.ValueIdx

noncomputable section

namespace Cert.KernelIdeal.Product2

open Cert.KernelIdeal Cert.KernelIdeal.Gen Idealize.ShloMosaic Idealize.ShloMosaic.TcCoe Idealize.SL.Sem Idealize.ShloMosaic.ValueIdx
open Idealize.ShloMosaic.Pipeline (Dat)

/- The buffers' contents when the region is entered: a parameter. -/
variable (V : (c : Dev nD) → (b : Ref sig .tc) → Buf (Elt Ideal) ((c : Thread nD τ).loc b))

theorem zeros : (![0, 0] : Fin 2 → Nat) = fun _ => 0 := funext fun a => by fin_cases a <;> rfl

/-- The kernel's and the reference's contractions both pair axis 1 of the left operand with axis 0 of the right. -/
theorem plainK : PlainDot.IsPlain (R := 5000) (K := 128) (C := 64) dot_S5000x128_S128x64_S5000x64_1_0_0_1_n_n := ⟨rfl, rfl, rfl, rfl, rfl, rfl⟩
theorem plainR : PlainDot.IsPlain (R := 50000) (K := 128) (C := 64) Cert.ReferenceIdeal.dot_S50000x128_S128x64_S50000x64_1_0_0_1_n_n := ⟨rfl, rfl, rfl, rfl, rfl, rfl⟩

/-- The product of the two whole arrays, in the reference's operation. -/
abbrev product (x : FVec Ideal S50000x128 .bf16) (w : FVec Ideal S128x64 .bf16) : FVec Ideal S50000x64 .f32 :=
  Host.dotGeneral Cert.ReferenceIdeal.dot_S50000x128_S128x64_S50000x64_1_0_0_1_n_n none x w

/-- The two operand arrays as the region finds them. -/
abbrev lhs (c : Dev nD) : FVec Ideal S50000x128 .bf16 := V c main_v48
abbrev rhs (c : Dev nD) : FVec Ideal S128x64 .bf16 := V c main_v49

/-- Block t of the left operand and of the output starts at row block t; the right operand's one block is the array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the body stores, at (p, q): the sum over k of the left block's (p, k) times the right block's (k, q). -/
theorem payload_at (x0 : Vec Ideal S5000x128 .bf16) (x1 : Vec Ideal S128x64 .bf16) (p : Fin 5000) (q : Fin 64) :
    k2_pay1 x0 x1 (ix2 p q) = ∑ k : Fin 128, x0 (ix2 p k) * x1 (ix2 k q) := by
  unfold k2_pay1
  rw [shapeCast_self, shapeCast_self]
  exact PlainDot.matmul_zero_apply plainK none x0 x1 p q

/-- The whole product at (r, q): the same sum over the whole arrays. -/
theorem product_at (x : FVec Ideal S50000x128 .bf16) (w : FVec Ideal S128x64 .bf16) (r : Fin 50000) (q : Fin 64) :
    product x w (ix2 r q) = ∑ k : Fin 128, x (ix2 r k) * w (ix2 k q) :=
  PlainDot.dotGeneral_apply plainR none .single x w r q

/-- Row p of the left operand's block t is row 5000·t + p of the array. -/
theorem lhs_block (c : Dev nD) (t : Fin cfg2.N) (p : Fin 5000) (k : Fin 128) (r : Fin 50000) (hr : r.val = 5000 * t.val + p.val) :
    (iblk2 V c 0 t : Vec Ideal S5000x128 .bf16) (ix2 p k) = lhs V c (ix2 r k) := by
  obtain ⟨e0, e1, -⟩ := idx_facts t
  unfold iblk2
  rw [View.read_apply]
  show V c main_v48 _ = V c main_v48 _
  refine congrArg (V c main_v48) ?_
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The right operand's block is the whole array at every point. -/
theorem rhs_block (c : Dev nD) (t : Fin cfg2.N) (k : Fin 128) (q : Fin 64) :
    (iblk2 V c 1 t : Vec Ideal S128x64 .bf16) (ix2 k q) = rhs V c (ix2 k q) := by
  obtain ⟨-, -, e0, e1, -⟩ := idx_facts t
  unfold iblk2
  rw [View.read_apply]
  show V c main_v49 _ = V c main_v49 _
  refine congrArg (V c main_v49) ?_
  funext a
  apply Fin.ext
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- What point t stores at (p, q) is the whole product at (5000·t + p, q). -/
theorem block_eq (c : Dev nD) (t : Fin cfg2.N) (p : Fin 5000) (q : Fin 64) (r : Fin 50000) (hr : r.val = 5000 * t.val + p.val) :
    k2_pay1 (iblk2 V c 0 t) (iblk2 V c 1 t) (ix2 p q) = product (lhs V c) (rhs V c) (ix2 r q) := by
  rw [product_at]
  refine (payload_at (iblk2 V c 0 t) (iblk2 V c 1 t) p q).trans ?_
  refine Finset.sum_congr rfl fun k _ => ?_
  rw [lhs_block V c t p k r hr, rhs_block V c t k q]

/-- What point t writes back is block t of the whole product. -/
theorem flushed_eq (c : Dev nD) (t : Fin cfg2.N) :
    (dat2 V c).flushed 2 t = ((cfg2.win 2).blk t).view.read (Elt Ideal) (product (lhs V c) (rhs V c)) := by
  show (cfg2.win 2).cut (grid2.coords t) ((dat2 V c).after 2 t) = _
  rw [after2_2]
  unfold out2_2
  rw [View.canon_unit_zero zeros]
  simp only [View.ld_unit_zero (S := S5000x128) zeros, View.ld_unit_zero (S := S128x64) zeros]
  obtain ⟨-, -, -, -, e0, e1⟩ := idx_facts t
  have ht : t.val < 10 := t.isLt
  funext j
  have hj0 : (j 0).val < 5000 := (j 0).isLt
  have hj1 : (j 1).val < 64 := (j 1).isLt
  obtain ⟨p, hp⟩ : ∃ p : Fin 5000, p.val = (j 0).val := ⟨⟨_, hj0⟩, rfl⟩
  obtain ⟨q, hq⟩ : ∃ q : Fin 64, q.val = (j 1).val := ⟨⟨_, hj1⟩, rfl⟩
  have hj : j = ix2 p q := funext fun a => Fin.ext (by
    match a with
    | ⟨0, _⟩ => exact hp.symm
    | ⟨1, _⟩ => exact hq.symm)
  subst hj
  rw [View.read_apply]
  have hemb : ((cfg2.win 2).blk t).view.emb (ix2 p q) = ix2 (⟨5000 * t.val + p.val, by omega⟩ : Fin 50000) q := by
    funext a
    apply Fin.ext
    match a with
    | ⟨0, _⟩ => show win2_2.index t (0 : Fin 2) * 5000 + 1 * p.val = 5000 * t.val + p.val; rw [e0]; omega
    | ⟨1, _⟩ => show win2_2.index t (1 : Fin 2) * 64 + 1 * q.val = q.val; rw [e1]; omega
  rw [hemb]
  exact block_eq V c t p q _ rfl

/-- An index of the output is in point t's block when its row lies in rows 5000·t … 5000·t + 4999. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

/-- The blocks tile the rows: row r is in block r / 5000. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, e0, e1⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 64 ≤ (i 1).val ∧ (i 1).val < win2_2.index t (1 : Fin 2) * 64 + 64; rw [e1]; omega

/-- After the region the output array holds the product of the two whole operand arrays. -/
theorem final (c : Dev nD) : (dat2 V c).arrAt 2 cfg2.N = product (lhs V c) (rhs V c) :=
  (dat2 V c).arrAt_eq_of_cover 2 (product (lhs V c) (rhs V c)) (fun t _ => flushed_eq V c t) covered

end Cert.KernelIdeal.Product2

end
-- ==== Proof.Bias2.lean ====
/-
  The second layer's bias, as the whole array the fourth kernel region leaves.

  The region walks the 50000 rows of its first operand in 10 blocks of 5000; at block t it adds the one bias row
  (a 1 × 64 array, the same block at every point) to each of rows 5000·t … 5000·t + 4999 and writes the 5000 × 64
  result back as rows 5000·t … of the output. Entry (r, q) of the output is therefore a(r, q) + b(0, q): the
  reference's add of the bias laid under every row.
-/
import proofs.«100522_j2241972928748_1_alg».proof.Proof.Gen.KernelIdeal.Frame
import proofs.«100522_j2241972928748_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.Bias2

open Cert.KernelIdeal Cert.KernelIdeal.Gen Idealize.ShloMosaic Idealize.ShloMosaic.TcCoe Idealize.SL.Sem Idealize.ShloMosaic.ValueIdx
open Idealize.ShloMosaic.Pipeline (Dat)

/- The buffers' contents when the region is entered: a parameter. -/
variable (V : (c : Dev nD) → (b : Ref sig .tc) → Buf (Elt Ideal) ((c : Thread nD τ).loc b))

theorem zeros : (![0, 0] : Fin 2 → Nat) = fun _ => 0 := funext fun a => by fin_cases a <;> rfl

/-- Every row of `a` plus the one row `b`, in the reference's operations. -/
abbrev biased (a : FVec Ideal S50000x64 .f32) (b : FVec Ideal S1x64 .f32) : FVec Ideal S50000x64 .f32 :=
  addf a (broadcastInDim Cert.ReferenceIdeal.S50000x64 ![0, 1] Cert.ReferenceIdeal.Gen.bcast_S1x64_S50000x64_0_1 b)

/-- The two operand arrays as the region finds them. -/
abbrev agg (c : Dev nD) : FVec Ideal S50000x64 .f32 := V c main_v63
abbrev row (c : Dev nD) : FVec Ideal S1x64 .f32 := V c main_v64

/-- Block t of the first operand and of the output starts at row block t; the bias row's one block is the array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the body stores, at (p, q). -/
theorem payload_at (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  rw [shapeCast_self, shapeCast_self, addf_apply, broadcastTo_1b_ab_apply]

/-- The whole-array function at (r, q). -/
theorem biased_at (a : FVec Ideal S50000x64 .f32) (b : FVec Ideal S1x64 .f32) (r : Fin 50000) (q : Fin 64) :
    biased a b (ix2 r q) = a (ix2 r q) + b (ix2 (0 : Fin 1) q) := by
  unfold biased
  rw [addf_apply,
    broadcastInDim_apply ![0, 1] _ b (ix2 r q) (ix2 (0 : Fin 1) q) (fun ax => by
      match ax with
      | ⟨0, _⟩ => rfl
      | ⟨1, _⟩ => rfl)]

/-- Row p of the first operand's block t is row 5000·t + p of the array. -/
theorem agg_block (c : Dev nD) (t : Fin cfg3.N) (p : Fin 5000) (q : Fin 64) (r : Fin 50000) (hr : r.val = 5000 * t.val + p.val) :
    (iblk3 V c 0 t : Vec Ideal S5000x64 .f32) (ix2 p q) = agg V c (ix2 r q) := by
  obtain ⟨e0, e1, -⟩ := idx_facts t
  unfold iblk3
  rw [View.read_apply]
  show V c main_v63 _ = V c main_v63 _
  refine congrArg (V c main_v63) ?_
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- The bias row's block is the whole 1 × 64 array at every point. -/
theorem row_block (c : Dev nD) (t : Fin cfg3.N) (q : Fin 64) :
    (iblk3 V c 1 t : Vec Ideal S1x64 .f32) (ix2 (0 : Fin 1) q) = row V c (ix2 (0 : Fin 1) q) := by
  obtain ⟨-, -, e0, e1, -⟩ := idx_facts t
  unfold iblk3
  rw [View.read_apply]
  show V c main_v64 _ = V c main_v64 _
  refine congrArg (V c main_v64) ?_
  funext a
  apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega

/-- What point t stores at (p, q) is the whole-array function at (5000·t + p, q). -/
theorem block_eq (c : Dev nD) (t : Fin cfg3.N) (p : Fin 5000) (q : Fin 64) (r : Fin 50000) (hr : r.val = 5000 * t.val + p.val) :
    k3_pay1 (iblk3 V c 0 t) (iblk3 V c 1 t) (ix2 p q) = biased (agg V c) (row V c) (ix2 r q) := by
  rw [biased_at]
  refine (payload_at (iblk3 V c 0 t) (iblk3 V c 1 t) p q).trans ?_
  rw [agg_block V c t p q r hr, row_block V c t q]

/-- What point t writes back is block t of the whole-array function. -/
theorem flushed_eq (c : Dev nD) (t : Fin cfg3.N) :
    (dat3 V c).flushed 2 t = ((cfg3.win 2).blk t).view.read (Elt Ideal) (biased (agg V c) (row V c)) := by
  show (cfg3.win 2).cut (grid3.coords t) ((dat3 V c).after 2 t) = _
  rw [after3_2]
  unfold out3_2
  rw [View.canon_unit_zero zeros]
  simp only [View.ld_unit_zero (S := S5000x64) zeros, View.ld_unit_zero (S := S1x64) zeros]
  obtain ⟨-, -, -, -, e0, e1⟩ := idx_facts t
  have ht : t.val < 10 := t.isLt
  funext j
  have hj0 : (j 0).val < 5000 := (j 0).isLt
  have hj1 : (j 1).val < 64 := (j 1).isLt
  obtain ⟨p, hp⟩ : ∃ p : Fin 5000, p.val = (j 0).val := ⟨⟨_, hj0⟩, rfl⟩
  obtain ⟨q, hq⟩ : ∃ q : Fin 64, q.val = (j 1).val := ⟨⟨_, hj1⟩, rfl⟩
  have hj : j = ix2 p q := funext fun a => Fin.ext (by
    match a with
    | ⟨0, _⟩ => exact hp.symm
    | ⟨1, _⟩ => exact hq.symm)
  subst hj
  rw [View.read_apply]
  have hemb : ((cfg3.win 2).blk t).view.emb (ix2 p q) = ix2 (⟨5000 * t.val + p.val, by omega⟩ : Fin 50000) q := by
    funext a
    apply Fin.ext
    match a with
    | ⟨0, _⟩ => show win3_2.index t (0 : Fin 2) * 5000 + 1 * p.val = 5000 * t.val + p.val; rw [e0]; omega
    | ⟨1, _⟩ => show win3_2.index t (1 : Fin 2) * 64 + 1 * q.val = q.val; rw [e1]; omega
  rw [hemb]
  exact block_eq V c t p q _ rfl

/-- An index of the output is in point t's block when its row lies in rows 5000·t … 5000·t + 4999. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- The blocks tile the rows: row r is in block r / 5000. -/
theorem covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := ⟨(i 0).val / 5000, by rw [show cfg3.N = 10 from N_3]; omega⟩
  obtain ⟨-, -, -, -, e0, e1⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 64 ≤ (i 1).val ∧ (i 1).val < win3_2.index t (1 : Fin 2) * 64 + 64; rw [e1]; omega

/-- After the region the output array holds the first operand plus the bias row. -/
theorem final (c : Dev nD) : (dat3 V c).arrAt 2 cfg3.N = biased (agg V c) (row V c) :=
  (dat3 V c).arrAt_eq_of_cover 2 (biased (agg V c) (row V c)) (fun t _ => flushed_eq V c t) covered

end Cert.KernelIdeal.Bias2

end
-- ==== Proof.Whole.lean ====
/-
  The idealized kernel program's result array is the network's output.

  Read back from the last boundary: the fourth region adds the second bias row to what arrives at each node from the
  second product; the second product is the first layer's output times the second weight matrix, the narrower copies
  of its operands being the operands themselves on the extended reals; the first layer's output is the second region's
  bias and maximum over what arrives at each node from the first product; and the first product is the features times
  the first weight matrix. A bias recast to one row is the bias laid out as a one-row array, entry by entry.
-/
import proofs.«100522_j2241972928748_1_alg».proof.Proof.Boundaries
import proofs.«100522_j2241972928748_1_alg».proof.Proof.Product1
import proofs.«100522_j2241972928748_1_alg».proof.Proof.Bias1
import proofs.«100522_j2241972928748_1_alg».proof.Proof.Product2
import proofs.«100522_j2241972928748_1_alg».proof.Proof.Bias2
import Idealize.ShloMosaic.Lib.ValueLayout

noncomputable section

namespace Cert.KernelIdeal.Whole

open Cert.KernelIdeal Cert.KernelIdeal.Gen Idealize.ShloMosaic Idealize.ShloMosaic.TcCoe Idealize.SL.Sem Idealize.ShloMosaic.ValueIdx

/-- The product of the narrower copies is the product of the arrays: a change of float format is the identity. -/
theorem product1_eq (x : FVec Ideal S50000x128 .f32) (w : FVec Ideal S128x128 .f32) :
    Product1.product (truncf .bf16 x bitsLt_bf16_f32) (truncf .bf16 w bitsLt_bf16_f32)
      = Host.dotGeneral Cert.ReferenceIdeal.dot_S50000x128_S128x128_S50000x128_1_0_0_1_n_n none x w := by
  funext i
  obtain ⟨r, q, rfl⟩ : ∃ (r : Fin 50000) (q : Fin 128), i = ix2 r q := ⟨i 0, i 1, eq_ix2 i⟩
  exact (Product1.product_at _ _ r q).trans (PlainDot.dotGeneral_apply Product1.plainR none .single x w r q).symm

theorem product2_eq (x : FVec Ideal S50000x128 .f32) (w : FVec Ideal S128x64 .f32) :
    Product2.product (truncf .bf16 x bitsLt_bf16_f32) (truncf .bf16 w bitsLt_bf16_f32)
      = Host.dotGeneral Cert.ReferenceIdeal.dot_S50000x128_S128x64_S50000x64_1_0_0_1_n_n none x w := by
  funext i
  obtain ⟨r, q, rfl⟩ : ∃ (r : Fin 50000) (q : Fin 64), i = ix2 r q := ⟨i 0, i 1, eq_ix2 i⟩
  exact (Product2.product_at _ _ r q).trans (PlainDot.dotGeneral_apply Product2.plainR none .single x w r q).symm

/-- A 128-vector recast to one row reads, at (0, q), the vector at q: so does the vector laid along axis 1 of a
    1 × 128 array. -/
theorem row128_eq (b : FVec Ideal S128 .f32) :
    (shapeCast S1x128 b shapeCasts_S128_S1x128 : FVec Ideal S1x128 .f32)
      = broadcastInDim Cert.ReferenceIdeal.S1x128 ![1] Cert.ReferenceIdeal.Gen.bcast_S128_S1x128_1 b := by
  funext i
  obtain ⟨u, q, rfl⟩ : ∃ (u : Fin 1) (q : Fin 128), i = ix2 u q := ⟨i 0, i 1, eq_ix2 i⟩
  rw [shapeCast_a_1a_apply, broadcastInDim_apply ![1] _ b (ix2 u q) (ix1 q) (fun ax => by
    match ax with
    | ⟨0, _⟩ => rfl)]

theorem row64_eq (b : FVec Ideal S64 .f32) :
    (shapeCast S1x64 b shapeCasts_S64_S1x64 : FVec Ideal S1x64 .f32)
      = broadcastInDim Cert.ReferenceIdeal.S1x64 ![1] Cert.ReferenceIdeal.Gen.bcast_S64_S1x64_1 b := by
  funext i
  obtain ⟨u, q, rfl⟩ : ∃ (u : Fin 1) (q : Fin 64), i = ix2 u q := ⟨i 0, i 1, eq_ix2 i⟩
  rw [shapeCast_a_1a_apply, broadcastInDim_apply ![1] _ b (ix2 u q) (ix1 q) (fun ax => by
    match ax with
    | ⟨0, _⟩ => rfl)]

variable (m : (ℓ : Loc nD τ sig) → Buf (Elt Ideal) ℓ) (ρ : Dev nD → PrngReg)

/-- The first region's output: the features times the first weight matrix. -/
theorem first_product (c : Dev nD) : (W4 m ρ c (Proc.devRef .tc main_v32) : FVec Ideal S50000x128 .f32)
    = Host.dotGeneral (F := Ideal) (φ₁ := .f32) (φ₂ := .f32) Cert.ReferenceIdeal.dot_S50000x128_S128x128_S50000x128_1_0_0_1_n_n none (m ((c : Thread nD τ).loc main_arg0)) (m ((c : Thread nD τ).loc main_arg2)) := by
  refine ((W4_arr m ρ c 2).trans (Product1.final (V3 m ρ) c)).trans ?_
  show Product1.product (W3 m ρ c (Proc.devRef .tc main_v30)) (W3 m ρ c (Proc.devRef .tc main_v31)) = _
  rw [Boundaries.W3_lhs, Boundaries.W3_rhs]
  exact product1_eq _ _

/-- The second region's output: the first layer after its maximum with 0. -/
theorem first_layer (c : Dev nD) : W6 m ρ c (Proc.devRef .tc main_v47)
    = Cert.Gcn.hidden (F := Ideal) (m ((c : Thread nD τ).loc main_arg0)) (m ((c : Thread nD τ).loc main_arg1)) (m ((c : Thread nD τ).loc main_arg2)) (m ((c : Thread nD τ).loc main_arg3)) := by
  refine ((W6_arr m ρ c 2).trans (Bias1.final (V5 m ρ) c)).trans ?_
  show Bias1.biased (W5 m ρ c (Proc.devRef .tc main_v45)) (W5 m ρ c (Proc.devRef .tc main_v46)) = _
  rw [Boundaries.W5_gathered, Boundaries.W5_row, first_product, row128_eq]
  rfl

/-- The third region's output: the first layer's output times the second weight matrix. -/
theorem second_product (c : Dev nD) : (W8 m ρ c (Proc.devRef .tc main_v50) : FVec Ideal S50000x64 .f32)
    = Host.dotGeneral (F := Ideal) (φ₁ := .f32) (φ₂ := .f32) Cert.ReferenceIdeal.dot_S50000x128_S128x64_S50000x64_1_0_0_1_n_n none (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  refine ((W8_arr m ρ c 2).trans (Product2.final (V7 m ρ) c)).trans ?_
  show Product2.product (W7 m ρ c (Proc.devRef .tc main_v48)) (W7 m ρ c (Proc.devRef .tc main_v49)) = _
  rw [Boundaries.W7_lhs, Boundaries.W7_rhs, first_layer]
  exact product2_eq _ _

/-- The fourth region's output, the program's result: the network's output. -/
theorem result_eq (c : Dev nD) : W10 m ρ c (Proc.devRef .tc main_v65)
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W10_arr m ρ c 2).trans (Bias2.final (V9 m ρ) c)).trans ?_
  show Bias2.biased (W9 m ρ c (Proc.devRef .tc main_v63)) (W9 m ρ c (Proc.devRef .tc main_v64)) = _
  rw [Boundaries.W9_gathered, Boundaries.W9_row, second_product, row64_eq]
  rfl

end Cert.KernelIdeal.Whole

end
-- ==== Proof.RefShape.lean ====
/-
  The reference program's result is the network's output: its composed term of the six arguments is, operation by
  operation, the network's definition with every named part written out — the sources and destinations and the
  weights once per place they are read, the two layers one inside the other.
-/
import proofs.«100522_j2241972928748_1_alg».proof.Proof.RefRun
import proofs.«100522_j2241972928748_1_alg».proof.Proof.Spec

noncomputable section

namespace Cert.ReferenceIdeal.Shape

open Cert.ReferenceIdeal Idealize.ShloMosaic Idealize.ShloMosaic.TcCoe Idealize.SL.Sem

variable {F : FTy → Type} [FloatOps F]

set_option maxRecDepth 16384 in
set_option maxHeartbeats 4000000 in
theorem res_eq (m : (ℓ : Loc nD τ sig) → Buf (Elt F) ℓ) (c : Dev nD) :
    Cert.ReferenceIdeal.ValueP.res_main_v94 m c
      = Cert.Gcn.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v94 Cert.Gcn.network Cert.Gcn.hidden Cert.Gcn.gathered64 Cert.Gcn.gathered128
    Cert.Gcn.biasRows64 Cert.Gcn.biasRows128 Cert.Gcn.weight Cert.Gcn.factor Cert.Gcn.degree Cert.Gcn.fromEnd
    Cert.Gcn.sources Cert.Gcn.dests
  rfl

end Cert.ReferenceIdeal.Shape

end
-- ==== Proof.lean ====
/-
  A two-layer graph convolution over 50000 nodes and 1600000 edges (a self loop added per node): the kernel program
  against its reference, on the extended reals.

  Both programs build the same edge weights from the edge list — each node's degree counted by a scatter-add of ones,
  its factor the reciprocal square root of the degree where positive, an edge's weight the product of its ends'
  factors — and apply twice "multiply the features by a weight matrix, send each source row along its edge scaled by
  the edge's weight, add up per destination, add a bias row", with a maximum with 0 in between. The kernel program does
  the two matrix products and the two bias steps in four kernel regions over blocks of 5000 rows, feeding the products
  operands in a narrower float format; everything else it does on the host exactly as the reference does.

  On the extended reals a change of float format is the identity, a row-blocked matrix product into a zero
  accumulator is the product of the whole arrays (each entry the same sum over the contracted axis), and a bias row
  added block by block is the bias laid under every row. So each region leaves the array the reference's
  corresponding operation computes, and the two results are one function of the six arguments (the network's
  definition). No algebraic law beyond that is used, and the inputs' finiteness is not needed.

  The three frames are the generated frame certificates and the reference's run; the idealization rewrote nothing.
-/
import proofs.«100522_j2241972928748_1_alg».proof.Defs
import proofs.«100522_j2241972928748_1_alg».proof.Proof.Gen.Kernel
import proofs.«100522_j2241972928748_1_alg».proof.Proof.Gen.Kernel.Frame
import proofs.«100522_j2241972928748_1_alg».proof.Proof.Gen.KernelIdeal
import proofs.«100522_j2241972928748_1_alg».proof.Proof.Gen.KernelIdeal.Frame
import proofs.«100522_j2241972928748_1_alg».proof.Proof.Gen.ReferenceIdeal
import proofs.«100522_j2241972928748_1_alg».proof.Proof.Gen.Pre_finite_inputs
import proofs.«100522_j2241972928748_1_alg».proof.Proof.RunNamed
import proofs.«100522_j2241972928748_1_alg».proof.Proof.Whole
import proofs.«100522_j2241972928748_1_alg».proof.Proof.RefRun
import proofs.«100522_j2241972928748_1_alg».proof.Proof.RefShape
import Idealize.ShloMosaic.Adequacy
import Idealize.ShloMosaic.Init

noncomputable section

namespace Cert.Proof

open Idealize.ShloMosaic Idealize.SL.Sem

/-- The kernel program at the word level runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the network's output of the arguments in their result arrays. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.GenP.run_named m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5⟩ := hagree c
    rw [Cert.ReferenceIdeal.Shape.res_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
